-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512 : Shape := ⟨1, ![512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S131072x512 .f32) (main_arg1 : FVec F S512 .f32) (main_arg2 : FVec F S512x512 .f32) (main_arg3 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S131072x512 : Shape := ⟨2, ![131072, 512]⟩
abbrev S512 : Shape := ⟨1, ![512]⟩
abbrev S512x512 : Shape := ⟨2, ![512, 512]⟩
abbrev S1x512 : Shape := ⟨2, ![1, 512]⟩
abbrev S4096x512 : Shape := ⟨2, ![4096, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S4096x512, .f32⟩
  | .local _ .vmem, ⟨6, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c1024_i32 : BitVec 32 := 1024#32
  let v6 : BitVec 32 := Scalar.muli c0_i32 c1024_i32
  let v7 : BitVec 32 := v6
  let v8 : Index := Scalar.indexCast v7
  let c0_5 : Index := 0#32
  ![v8.toNat, 0]
def k0_mult2 : BitVec 32 :=
  let c1_i32 : BitVec 32 := 1#32
  let c1024_i32_7 : BitVec 32 := 1024#32
  let v20 : BitVec 32 := Scalar.muli c1_i32 c1024_i32_7
  v20
def k0_mult3 : BitVec 32 :=
  let c2_i32 : BitVec 32 := 2#32
  let c1024_i32_11 : BitVec 32 := 1024#32
  let v34 : BitVec 32 := Scalar.muli c2_i32 c1024_i32_11
  v34
def k0_mult4 : BitVec 32 :=
  let c3_i32 : BitVec 32 := 3#32
  let c1024_i32_15 : BitVec 32 := 1024#32
  let v48 : BitVec 32 := Scalar.muli c3_i32 c1024_i32_15
  v48
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  h_S1024x512 : 0 < S1024x512.numel
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  k0_mult1_dvd : 1024 ∣ k0_mult1.toNat
  k0_off1_inb : ∀ (r : Fin 4), ∀ a, (k0_off1 (BitVec.ofNat 32 r.val)) a + S1024x512.size a ≤ S4096x512.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S131072x512.size a
  hwx0_4 : ∀ i : grid0.Coords, EltTy.bits .f32 = 32 ∨ (Rect.block (s := S131072x512) S4096x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S512 : Shape := ⟨1, ![512]⟩
abbrev S512x512 : Shape := ⟨2, ![512, 512]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S131072x512, .f32⟩
  | .hbm, ⟨6, _⟩ => ⟨S131072x512, .f32⟩
  | .hbm, ⟨7, _⟩ => ⟨S1x512, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S131072x512, .f32⟩
  | .hbm, ⟨12, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.FourierSpec.lean ====
/-
  The layer, as one function of its four arrays. For x of shape [131072, 512], frequencies w1 and phases b1 of
  shape [512] and a projection w2 of shape [512, 512], the Fourier feature of row r at frequency k is
  cos (x[r,k] · w1[k] + b1[k]), and the layer's result is the projected features plus the residual,

      out[r, j] = (Σ_k cos (x[r,k] · w1[k] + b1[k]) · w2[k, j]) + x[r, j],

  over the extended reals: the cosine is the one the ideal instance gives every program (Real.cos on the finite
  values), the sum runs over the 512 frequencies in one go, and nothing here depends on how the rows are tiled.
-/
import Idealize.ShloMosaic.PureOps.Ideal
import Idealize.ShloMosaic.Lib.ValueIdx

noncomputable section

open scoped BigOperators

namespace Cert.FourierResidual

open Idealize.ShloMosaic Idealize.ShloMosaic.ValueIdx

/-- The shape of x and of the result: 131072 rows of 512 features. -/
abbrev Rows : Shape := ⟨2, ![131072, 512]⟩
/-- The shape of the frequencies and of the phases. -/
abbrev Freqs : Shape := ⟨1, ![512]⟩
/-- The shape of the projection. -/
abbrev Proj : Shape := ⟨2, ![512, 512]⟩

/-- The Fourier feature of row `r` at frequency `k`: cos (x[r,k] · w1[k] + b1[k]). -/
def feature (x : Rows.Idx → EReal) (w1 b1 : Freqs.Idx → EReal) (r : Fin 131072) (k : Fin 512) : EReal :=
  Ideal.cos (x (ix2 r k) * w1 (ix1 k) + b1 (ix1 k))

/-- The layer: entry (r, j) is the features of row r projected onto column j of w2, plus x[r, j]. -/
def layer (x : Rows.Idx → EReal) (w1 : Freqs.Idx → EReal) (w2 : Proj.Idx → EReal) (b1 : Freqs.Idx → EReal) :
    Rows.Idx → EReal :=
  fun i => (∑ k : Fin 512, feature x w1 b1 (i 0) k * w2 (ix2 k (i 1))) + x i

/-- The layer at an index given by its coordinates. -/
theorem layer_apply (x : Rows.Idx → EReal) (w1 : Freqs.Idx → EReal) (w2 : Proj.Idx → EReal) (b1 : Freqs.Idx → EReal)
    (r : Fin 131072) (j : Fin 512) :
    layer x w1 w2 b1 (ix2 r j) = (∑ k : Fin 512, feature x w1 b1 r k * w2 (ix2 k j)) + x (ix2 r j) := rfl

end Cert.FourierResidual

end
-- ==== Proof.ReferenceLayer.lean ====
/-
  The reference program computes the layer. Read one entry at a time, its result at (r, j) is

      (Σ_k cos (x[r,k] · w1[k] + b1[k]) · w2[k, j]) + x[r, j]:

  the two broadcasts of w1 (and of b1) read frequency k whatever the row, the host's cosine is the ideal
  instance's cosine, the host's matrix product is the plain sum over the 512 frequencies, and the last
  addition is the residual.
-/
import proofs.«429934_j18124761989257_3_alg».proof.Proof.Gen.ReferenceIdeal.Read
import proofs.«429934_j18124761989257_3_alg».proof.Proof.FourierSpec

noncomputable section

open scoped BigOperators

namespace Cert.FourierResidual.OfReference

open Cert.ReferenceIdeal Cert.ReferenceIdeal.Read Cert.FourierResidual
open Idealize.ShloMosaic Idealize.ShloMosaic.ValueIdx

/-- Row r, frequency k of the features the reference forms before its matrix product. -/
theorem features_apply (x : (⟨S131072x512, .f32⟩ : BufTy).Contents (Elt Ideal))
    (w1 b1 : (⟨S512, .f32⟩ : BufTy).Contents (Elt Ideal)) (r : Fin 131072) (k : Fin 512) :
    val_main_v6 (F := Ideal) x w1 b1 (ix2 r k) = feature x w1 b1 r k := by
  rw [val_main_v6_apply, val_main_v5_apply, val_main_v2_apply, val_main_v1_apply, val_main_v0_apply,
    val_main_v4_apply, val_main_v3_apply]
  have e1 : idx_main_v0 (idx_main_v1 (ix2 r k)) = ix1 k := funext fun a => by
    match a with
    | ⟨0, _⟩ => rfl
  have e3 : idx_main_v3 (idx_main_v4 (ix2 r k)) = ix1 k := funext fun a => by
    match a with
    | ⟨0, _⟩ => rfl
  rw [e1, e3]
  rfl

/-- The reference's result is the layer of its four arguments. -/
theorem result_eq_layer (x : (⟨S131072x512, .f32⟩ : BufTy).Contents (Elt Ideal))
    (w1 : (⟨S512, .f32⟩ : BufTy).Contents (Elt Ideal)) (w2 : (⟨S512x512, .f32⟩ : BufTy).Contents (Elt Ideal))
    (b1 : (⟨S512, .f32⟩ : BufTy).Contents (Elt Ideal)) :
    val_main_v8 (F := Ideal) x w1 w2 b1 = layer x w1 w2 b1 := by
  funext i
  obtain ⟨r, j, rfl⟩ : ∃ (r : Fin 131072) (j : Fin 512), i = ix2 r j := ⟨i 0, i 1, eq_ix2 i⟩
  rw [val_main_v8_apply, val_main_v7_apply, layer_apply]
  have hl : ∀ k : Fin 512, lidx_main_v7 (ix2 r j) k = ix2 r k := fun k => funext fun a => by
    match a with
    | ⟨0, _⟩ => rfl
    | ⟨1, _⟩ => rfl
  have hr : ∀ k : Fin 512, ridx_main_v7 (ix2 r j) k = ix2 k j := fun k => funext fun a => by
    match a with
    | ⟨0, _⟩ => rfl
    | ⟨1, _⟩ => rfl
  simp only [hl, hr, features_apply]
  rfl

end Cert.FourierResidual.OfReference

end
-- ==== Proof.KernelChunk.lean ====
/-
  One chunk of the kernel's body. The body cuts its 4096-row block into four chunks of 1024 rows and does the
  same arithmetic on each: with w the row of frequencies, b the row of phases and P the projection,

      chunk[p, q] = (Σ_k cos (xc[p,k] · w[0,k] + b[0,k]) · P[k, q]) + xc[p, q].

  Over the extended reals the narrowing of the features and of P before the matrix product changes nothing,
  the product into a zero accumulator is the plain sum over the 512 frequencies, and the broadcasts of the two
  rows read column k whatever the row p. The four stores of the body hold this one function of their chunk.
-/
import proofs.«429934_j18124761989257_3_alg».proof.Proof.Gen.KernelIdeal.Skeleton
import proofs.«429934_j18124761989257_3_alg».proof.Proof.FourierSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.FourierResidual.OfKernel

open Cert.KernelIdeal Cert.KernelIdeal.Gen Cert.FourierResidual
open Idealize.ShloMosaic Idealize.ShloMosaic.ValueIdx

/-! ## The body's matrix product: chunk rows by frequencies, times frequencies by columns -/

/-- The left operand is read at the result's row … -/
theorem dot_lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- … and at the summed frequency; -/
theorem dot_lhs_freq (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- the right operand at the summed frequency … -/
theorem dot_rhs_freq (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- … and at the result's column. -/
theorem dot_rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Entry (p, q) of the product accumulated into zero: Σ_k A[p,k] · B[k,q]. -/
theorem product_entry (A : FVec Ideal S1024x512 .bf16) (B : FVec Ideal S512x512 .bf16) (p : Fin 1024) (q : Fin 512) :
    matmul dot_S1024x512_S512x512_S1024x512_1_0_0_1_n_n none A B (constant (F := Ideal) S1024x512 .f32 0x00000000#32) (ix2 p q)
      = ∑ k : Fin 512, A (ix2 p k) * B (ix2 k q) := by
  simp only [matmul]
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k :=
    funext fun a => Fin.ext (by
      match a with
      | ⟨0, _⟩ => exact dot_lhs_row _ _
      | ⟨1, _⟩ => exact (dot_lhs_freq _ _).trans hk)
  have er : dot_S1024x512_S512x512_S1024x512_1_0_0_1_n_n.rhsIdx (ix2 p q) ((contrEquiv1 dot_S1024x512_S512x512_S1024x512_1_0_0_1_n_n 512 rfl rfl).symm k) = ix2 k q :=
    funext fun a => Fin.ext (by
      match a with
      | ⟨0, _⟩ => exact (dot_rhs_freq _ _).trans hk
      | ⟨1, _⟩ => exact dot_rhs_col _ _)
  rw [el, er]

/-! ## A chunk's stored value at an entry -/

/-- The value the body stores for a chunk `xc`, at entry (p, q). -/
theorem chunk_entry (w b : FVec Ideal S1x512 .f32) (P : FVec Ideal S512x512 .bf16) (xc : Vec Ideal S1024x512 .f32)
    (p : Fin 1024) (q : Fin 512) :
    k0_pay1 w b P xc (ix2 p q)
      = (∑ k : Fin 512, Ideal.cos (xc (ix2 p k) * w (ix2 (0 : Fin 1) k) + b (ix2 (0 : Fin 1) k)) * P (ix2 k q))
        + xc (ix2 p q) := by
  unfold k0_pay1
  rw [addf_apply, product_entry]
  refine congrArg (· + xc (ix2 p q)) (Finset.sum_congr rfl fun k _ => ?_)
  rw [truncf_apply]
  show Ideal.cos (addf (mulf xc (broadcastTo S1024x512 w broadcasts_S1x512_S1024x512))
      (broadcastTo S1024x512 b broadcasts_S1x512_S1024x512) (ix2 p k)) * P (ix2 k q) = _
  rw [addf_apply, mulf_apply, broadcastTo_1b_ab_apply, broadcastTo_1b_ab_apply]

/-- The second pair of stores holds the same function of its chunk as the first pair … -/
theorem pay2_eq (w b : FVec Ideal S1x512 .f32) (P : FVec Ideal S512x512 .bf16) (xc : Vec Ideal S1024x512 .f32) :
    k0_pay2 w b P xc = k0_pay1 w b P xc := rfl
/-- … and the first pair, which takes the rows and the projection as loaded, casts and narrows them first:
    over the extended reals the loaded rows and the loaded projection themselves. -/
theorem pay6_eq (w b : Vec Ideal S1x512 .f32) (P : Vec Ideal S512x512 .f32) (xc : Vec Ideal S1024x512 .f32) :
    k0_pay6 w b P xc = k0_pay1 w b P xc := by
  unfold k0_pay6 k0_pay1 k0_pay3 k0_pay4 k0_pay5
  rw [shapeCast_self, shapeCast_self]
  rfl
theorem pay7_eq (w b : Vec Ideal S1x512 .f32) (P : Vec Ideal S512x512 .f32) (xc : Vec Ideal S1024x512 .f32) :
    k0_pay7 w b P xc = k0_pay1 w b P xc := by
  unfold k0_pay7 k0_pay1 k0_pay3 k0_pay4 k0_pay5
  rw [shapeCast_self, shapeCast_self]
  rfl

end Cert.FourierResidual.OfKernel

end
-- ==== Proof.KernelBlock.lean ====
/-
  What one grid point leaves in its output block. The body fills the 4096-row block by four stores of 1024 rows,
  at row offsets 0, 1024, 2048 and 3072, each holding the chunk formula of the rows it loaded at the same
  offset. A chunk's entry (p, q) depends on row p of that chunk only, and row p of the chunk at offset o is row
  o + p of the block; so all four stores are restrictions of ONE function of the block,

      block[r, q] = (Σ_k cos (X[r,k] · w[0,k] + b[0,k]) · P[k, q]) + X[r, q],

  and since the four rectangles cover the block, the block ends holding that function.
-/
import proofs.«429934_j18124761989257_3_alg».proof.Proof.Gen.KernelIdeal.Frame
import proofs.«429934_j18124761989257_3_alg».proof.Proof.KernelChunk
import Idealize.ShloMosaic.Lib.Tactic

set_option maxRecDepth 16384

noncomputable section

open scoped BigOperators

namespace Cert.FourierResidual.OfKernel

open Cert.KernelIdeal Cert.KernelIdeal.Gen Cert.FourierResidual
open Idealize.ShloMosaic Idealize.ShloMosaic.TcCoe Idealize.ShloMosaic.Tactic Idealize.SL.Sem Idealize.ShloMosaic.ValueIdx

/-- The layer on one block: X the block's 4096 rows of x, w and b the rows of frequencies and phases, P the
    projection. -/
def blockLayer (X : Vec Ideal S4096x512 .f32) (w b : Vec Ideal S1x512 .f32) (P : Vec Ideal S512x512 .f32) :
    Vec Ideal S4096x512 .f32 :=
  fun y => (∑ k : Fin 512, Ideal.cos (X (ix2 (y 0) k) * w (ix2 (0 : Fin 1) k) + b (ix2 (0 : Fin 1) k)) * P (ix2 k (y 1))) + X y

/-- The rows as loaded are the rows the body works with: recasting [1, 512] to [1, 512] changes nothing … -/
theorem pay3_eq (w : Vec Ideal S1x512 .f32) : k0_pay3 w = w := by
  unfold k0_pay3; exact shapeCast_self _ _
theorem pay4_eq (b : Vec Ideal S1x512 .f32) : k0_pay4 b = b := by
  unfold k0_pay4; exact shapeCast_self _ _
/-- … and narrowing the projection changes no extended real. -/
theorem pay5_eq (P : Vec Ideal S512x512 .f32) : k0_pay5 P = P := rfl

/-- The chunk stored through a 1024-row rectangle that starts at column 0 restricts the block's function: its
    entry (p, q) is the block's entry at the rectangle's image of (p, q). -/
theorem chunk_restricts (X : Vec Ideal S4096x512 .f32) (w b : Vec Ideal S1x512 .f32) (P : Vec Ideal S512x512 .f32)
    (off : Fin 2 → Nat) (hcol : off 1 = 0) (inb : ∀ a, off a + S1024x512.size a ≤ S4096x512.size a) (x : S1024x512.Idx) :
    k0_pay1 w b P (View.ld X (Rect.unit (s := S4096x512) off S1024x512.size inb)) x
      = blockLayer X w b P ((Rect.unit (s := S4096x512) off S1024x512.size inb).emb x) := by
  obtain ⟨p, q, rfl⟩ : ∃ (p : Fin 1024) (q : Fin 512), x = ix2 p q := ⟨x 0, x 1, eq_ix2 x⟩
  rw [chunk_entry]
  have hrow : ∀ k : Fin 512, (Rect.unit (s := S4096x512) off S1024x512.size inb).idx (ix2 p k)
      = ix2 ((Rect.unit (s := S4096x512) off S1024x512.size inb).emb (ix2 p q) 0) k := fun k =>
    funext fun a => Fin.ext (by
      match a with
      | ⟨0, _⟩ => rfl
      | ⟨1, _⟩ => show off 1 + 1 * k.val = k.val; omega)
  have hq : (Rect.unit (s := S4096x512) off S1024x512.size inb).emb (ix2 p q) 1 = q :=
    Fin.ext (by show off 1 + 1 * q.val = q.val; omega)
  show (∑ k : Fin 512, Ideal.cos (X ((Rect.unit (s := S4096x512) off S1024x512.size inb).idx (ix2 p k))
        * w (ix2 (0 : Fin 1) k) + b (ix2 (0 : Fin 1) k)) * P (ix2 k q))
      + X ((Rect.unit (s := S4096x512) off S1024x512.size inb).idx (ix2 p q))
    = (∑ k : Fin 512, Ideal.cos (X (ix2 ((Rect.unit (s := S4096x512) off S1024x512.size inb).emb (ix2 p q) 0) k)
        * w (ix2 (0 : Fin 1) k) + b (ix2 (0 : Fin 1) k))
        * P (ix2 k ((Rect.unit (s := S4096x512) off S1024x512.size inb).emb (ix2 p q) 1)))
      + X ((Rect.unit (s := S4096x512) off S1024x512.size inb).emb (ix2 p q))
  have hself : (Rect.unit (s := S4096x512) off S1024x512.size inb).emb (ix2 p q)
      = ix2 ((Rect.unit (s := S4096x512) off S1024x512.size inb).emb (ix2 p q) 0) q :=
    funext fun a => Fin.ext (by
      match a with
      | ⟨0, _⟩ => rfl
      | ⟨1, _⟩ => exact congrArg Fin.val hq)
  simp only [hrow, hq]
  rw [← hself]
  rfl

theorem zeros : (![0, 0] : Fin 2 → Nat) = fun _ => 0 := funext fun a => by fin_cases a <;> rfl

/-- What the body leaves in its output block: the layer on the block. -/
theorem block_eq (c : Dev nD) (i : grid0.Coords) (a1 : Memref sig .tc .vmem S4096x512 .f32) (h1 : a1.IsWhole) (a2 : Memref sig .tc .vmem S1x512 .f32) (h2 : a2.IsWhole) (a3 : Memref sig .tc .vmem S1x512 .f32) (h3 : a3.IsWhole) (a4 : Memref sig .tc .vmem S512x512 .f32) (h4 : a4.IsWhole) (a5 : Memref sig .tc .vmem S4096x512 .f32) (h5 : a5.IsWhole)
    (X : Vec Ideal S4096x512 .f32) (w b : Vec Ideal S1x512 .f32) (P : Vec Ideal S512x512 .f32) :
    out0_A_4 (F := Ideal) c i a1 h1 a2 h2 a3 h3 a4 h4 a5 h5 X w b P = blockLayer X w b P := by
  unfold out0_A_4
  rw [View.read_writes_eq_canon _ _ _ (cover0_A_4 c i a1 h1 a2 h2 a3 h3 a4 h4 a5 h5 X w b P)]
  funext y
  refine View.canon_apply_of_pieces (blockLayer X w b P) _ ?_ y (cover0_A_4 c i a1 h1 a2 h2 a3 h3 a4 h4 a5 h5 X w b P y)
  unfold kernelRun0_A
  dsimp only
  sl_unfold_words
  intro pc hpc
  simp only [List.mem_cons, List.not_mem_nil, or_false] at hpc
  rcases hpc with rfl | rfl | rfl | rfl
  all_goals
    intro x
    dsimp only
    simp only [View.readAt_eq_ld, h1.read_unread, h2.read_unread, h3.read_unread, h4.read_unread,
      View.ld_unit_zero (S := S1x512) zeros, View.ld_unit_zero (S := S512x512) zeros,
      pay2_eq, pay6_eq, pay7_eq, pay3_eq, pay4_eq, pay5_eq]
    exact chunk_restricts X w b P _ rfl _ x

end Cert.FourierResidual.OfKernel

end
-- ==== Proof.KernelArray.lean ====
/-
  From blocks to the array. Grid point t of the 32 works on rows 4096·t … 4096·t + 4095: its block of x is
  those rows of x, its rows of frequencies and phases are w1 and b1 recast as one row of 512 (the same at every
  point), its projection block is all of w2, and what it writes back is those rows of the layer of (x, w1, w2, b1).
  The 32 blocks tile the 131072 rows, so after the run the result array is the layer itself.
-/
import proofs.«429934_j18124761989257_3_alg».proof.Proof.Gen.KernelIdeal.Value
import proofs.«429934_j18124761989257_3_alg».proof.Proof.KernelBlock
import Idealize.ShloMosaic.Lib.StableHlo.Run

set_option maxRecDepth 16384

noncomputable section

open scoped BigOperators

namespace Cert.FourierResidual.OfKernel

open Cert.KernelIdeal Cert.KernelIdeal.Gen Cert.FourierResidual
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the four argument arrays as launched: what the result array ends holding. -/
abbrev result (c : Dev nD) : Buf (Elt Ideal) ((c : Thread nD τ).loc main_v0) :=
  layer (m ((c : Thread nD τ).loc main_arg0)) (m ((c : Thread nD τ).loc main_arg1)) (m ((c : Thread nD τ).loc main_arg2)) (m ((c : Thread nD τ).loc main_arg3))

/-! ## The blocks a grid point works on, at their literal shapes -/

/-- Point t's block of x … -/
abbrev xBlock (c : Dev nD) (t : Fin cfg0.N) : Vec Ideal S4096x512 .f32 := iblk m c 0 t
/-- … its row of frequencies … -/
abbrev freqRow (c : Dev nD) (t : Fin cfg0.N) : Vec Ideal S1x512 .f32 := iblk m c 1 t
/-- … its row of phases … -/
abbrev phaseRow (c : Dev nD) (t : Fin cfg0.N) : Vec Ideal S1x512 .f32 := iblk m c 2 t
/-- … and its block of the projection. -/
abbrev projBlock (c : Dev nD) (t : Fin cfg0.N) : Vec Ideal S512x512 .f32 := iblk m c 3 t

/-- Row p of point t's block is row 4096·t + p of the array. -/
abbrev arrayRow (t : Fin cfg0.N) (p : Fin 4096) : Fin 131072 :=
  ⟨4096 * t.val + p.val, by have := t.isLt; have hN : cfg0.N = 32 := N_0; have := p.isLt; omega⟩

/-- Where the blocks sit, decided over the 32 points: the blocks of x and of the result are block t along the
    rows and the only block along the columns; the other three windows never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two rows the host recasts before the launch -/

/-- The row of frequencies the region finds is w1 recast to [1, 512] … -/
theorem freqArray_eq (c : Dev nD) :
    (V m c main_call0_v0 : S1x512.Idx → EReal) = shapeCast S1x512 (m ((c : Thread nD τ).loc main_arg1)) shapeCasts_S512_S1x512 := by
  dsimp only [V, hostOps0]; after_results; rfl
/-- … and the row of phases is b1 recast to [1, 512]. -/
theorem phaseArray_eq (c : Dev nD) :
    (V m c main_call0_v1 : S1x512.Idx → EReal) = shapeCast S1x512 (m ((c : Thread nD τ).loc main_arg3)) shapeCasts_S512_S1x512 := by
  dsimp only [V, hostOps0]; after_results; rfl

/-! ## Each block read at an entry -/

theorem xBlock_apply (c : Dev nD) (t : Fin cfg0.N) (p : Fin 4096) (k : Fin 512) :
    xBlock m c t (ix2 p k) = m ((c : Thread nD τ).loc main_arg0) (ix2 (arrayRow t p) k) := by
  show V m c main_arg0 (((cfg0.win 0).blk t).view.emb (ix2 p k)) = _
  rw [V_main_arg0]
  obtain ⟨e0, e1, -⟩ := block_indices t
  refine congrArg _ (funext fun a => Fin.ext ?_)
  match a with
  | ⟨0, _⟩ => show win0_0.index t (0 : Fin 2) * 4096 + 1 * p.val = 4096 * t.val + p.val; omega
  | ⟨1, _⟩ => show win0_0.index t (1 : Fin 2) * 512 + 1 * k.val = k.val; omega

theorem freqRow_apply (c : Dev nD) (t : Fin cfg0.N) (k : Fin 512) :
    freqRow m c t (ix2 (0 : Fin 1) k) = m ((c : Thread nD τ).loc main_arg1) (ix1 k) := by
  show V m c main_call0_v0 (((cfg0.win 1).blk t).view.emb (ix2 (0 : Fin 1) k)) = _
  rw [freqArray_eq]
  obtain ⟨-, -, e2, e3, -⟩ := block_indices t
  refine Eq.trans (congrArg _ (funext fun a => Fin.ext ?_)) (shapeCast_a_1a_apply _ shapeCasts_S512_S1x512 (0 : Fin 1) k)
  match a with
  | ⟨0, _⟩ => show win0_1.index t (0 : Fin 2) * 1 + 1 * 0 = 0; omega
  | ⟨1, _⟩ => show win0_1.index t (1 : Fin 2) * 512 + 1 * k.val = k.val; omega

theorem phaseRow_apply (c : Dev nD) (t : Fin cfg0.N) (k : Fin 512) :
    phaseRow m c t (ix2 (0 : Fin 1) k) = m ((c : Thread nD τ).loc main_arg3) (ix1 k) := by
  show V m c main_call0_v1 (((cfg0.win 2).blk t).view.emb (ix2 (0 : Fin 1) k)) = _
  rw [phaseArray_eq]
  obtain ⟨-, -, -, -, e4, e5, -⟩ := block_indices t
  refine Eq.trans (congrArg _ (funext fun a => Fin.ext ?_)) (shapeCast_a_1a_apply _ shapeCasts_S512_S1x512 (0 : Fin 1) k)
  match a with
  | ⟨0, _⟩ => show win0_2.index t (0 : Fin 2) * 1 + 1 * 0 = 0; omega
  | ⟨1, _⟩ => show win0_2.index t (1 : Fin 2) * 512 + 1 * k.val = k.val; omega

theorem projBlock_apply (c : Dev nD) (t : Fin cfg0.N) (k q : Fin 512) :
    projBlock m c t (ix2 k q) = m ((c : Thread nD τ).loc main_arg2) (ix2 k q) := by
  show V m c main_arg2 (((cfg0.win 3).blk t).view.emb (ix2 k q)) = _
  rw [V_main_arg2]
  obtain ⟨-, -, -, -, -, -, e6, e7, -⟩ := block_indices t
  refine congrArg _ (funext fun a => Fin.ext ?_)
  match a with
  | ⟨0, _⟩ => show win0_3.index t (0 : Fin 2) * 512 + 1 * k.val = k.val; omega
  | ⟨1, _⟩ => show win0_3.index t (1 : Fin 2) * 512 + 1 * q.val = q.val; omega

/-! ## What a point writes back -/

/-- Entry (p, q) of what point t leaves in its output block is entry (4096·t + p, q) of the layer. -/
theorem written_entry (c : Dev nD) (t : Fin cfg0.N) (p : Fin 4096) (q : Fin 512) :
    blockLayer (xBlock m c t) (freqRow m c t) (phaseRow m c t) (projBlock m c t) (ix2 p q)
      = result m c (ix2 (arrayRow t p) q) := by
  show (∑ k : Fin 512, Ideal.cos (xBlock m c t (ix2 p k) * freqRow m c t (ix2 (0 : Fin 1) k) + phaseRow m c t (ix2 (0 : Fin 1) k))
      * projBlock m c t (ix2 k q)) + xBlock m c t (ix2 p q) = _
  simp only [xBlock_apply, freqRow_apply, phaseRow_apply, projBlock_apply]
  rfl

/-- What point t writes back is block t of the layer. -/
theorem written_eq (c : Dev nD) (t : Fin cfg0.N) :
    (dats m 0 c).flushed 4 t = ((cfg0.win 4).blk t).view.read (Elt Ideal) (result m c) := by
  rw [Cert.KernelIdeal.Value.flushed4_A]
  funext j
  refine (congrFun (block_eq c (grid0.coords t) (ms0_0 t) (hs0_0 t) (ms0_1 t) (hs0_1 t) (ms0_2 t) (hs0_2 t)
    (ms0_3 t) (hs0_3 t) (ms0_4 t) (hs0_4 t) (xBlock m c t) (freqRow m c t) (phaseRow m c t) (projBlock m c t)) j).trans ?_
  show blockLayer (xBlock m c t) (freqRow m c t) (phaseRow m c t) (projBlock m c t) j
    = result m c (((cfg0.win 4).blk t).view.emb j)
  obtain ⟨-, -, -, -, -, -, -, -, e8, e9⟩ := block_indices t
  have hj0 : (j 0).val < 4096 := (j 0).isLt
  have hj1 : (j 1).val < 512 := (j 1).isLt
  have he : ((cfg0.win 4).blk t).view.emb j = ix2 (arrayRow t ⟨(j 0).val, hj0⟩) ⟨(j 1).val, hj1⟩ := by
    funext a; apply Fin.ext
    match a with
    | ⟨0, _⟩ => show win0_4.index t (0 : Fin 2) * 4096 + 1 * (j 0).val = 4096 * t.val + (j 0).val; omega
    | ⟨1, _⟩ => show win0_4.index t (1 : Fin 2) * 512 + 1 * (j 1).val = (j 1).val; omega
  rw [he]
  refine Eq.trans (congrArg (blockLayer (xBlock m c t) (freqRow m c t) (phaseRow m c t) (projBlock m c t)) ?_)
    (written_entry m c t ⟨(j 0).val, hj0⟩ ⟨(j 1).val, hj1⟩)
  funext a
  match a with
  | ⟨0, _⟩ => rfl
  | ⟨1, _⟩ => rfl

/-! ## The blocks tile the array -/

/-- An index of the result array is in point t's block iff its row is one of the block's 4096 rows. -/
theorem mem_block (t : Fin cfg0.N) (i : S131072x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v0).slice (win0_4.rect t)).set ↔ _
  rw [View.set_slice_whole, Rect.mem_set_unit]
  exact Iff.rfl

/-- Row r lies in the block of point r / 4096. -/
theorem covered (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 32 := N_0
  refine ⟨⟨(i 0).val / 4096, by rw [hN]; omega⟩, flush0_4 _, ?_⟩
  rw [mem_block]
  obtain ⟨-, -, -, -, -, -, -, -, e8, e9⟩ := block_indices ⟨(i 0).val / 4096, by rw [hN]; omega⟩
  intro a
  match a with
  | ⟨0, _⟩ =>
    show win0_4.index _ (0 : Fin 2) * 4096 ≤ (i 0).val ∧ (i 0).val < win0_4.index _ (0 : Fin 2) * 4096 + 4096
    rw [e8]; dsimp only; omega
  | ⟨1, _⟩ =>
    show win0_4.index _ (1 : Fin 2) * 512 ≤ (i 1).val ∧ (i 1).val < win0_4.index _ (1 : Fin 2) * 512 + 512
    rw [e9]; omega

/-- So the result array ends holding the layer. -/
theorem final (c : Dev nD) : (dats m 0 c).arrAt 4 cfg0.N = result m c :=
  (dats m 0 c).arrAt_eq_of_cover 4 (result m c) (fun t _ => written_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.KernelIdeal.Value.run_blocks m ρ)

end Cert.FourierResidual.OfKernel

end
-- ==== Proof.lean ====
/-
  The certificate's claims for the Fourier residual layer.

  Both programs compute, over the extended reals,

      out[r, j] = (Σ_k cos (x[r,k] · w1[k] + b1[k]) · w2[k, j]) + x[r, j]

  (Proof/FourierSpec.lean states it once, as `layer`). The kernel tiles the 131072 rows into 32 blocks of 4096
  and each block into four chunks of 1024; every chunk's stored value is that formula on its rows
  (Proof/KernelChunk.lean), so a grid point leaves those rows of the layer in its output block
  (Proof/KernelBlock.lean), and the 32 blocks tile the result array (Proof/KernelArray.lean). The reference applies
  the same operations to the whole arrays at once (Proof/ReferenceLayer.lean). The kernel narrows the features
  and the projection before its matrix product and accumulates into zero: over the extended reals neither
  changes a value, and the two sums run over the same 512 frequencies with the same factors in the same order,
  so no law beyond 0 + s = s is used and the inputs' finiteness is never needed.

  The idealization rewrote nothing, so the kernel and its idealization agree trivially; the three programs run
  to the end with their arguments unchanged (the two kernels by their launch's frame, the reference by its run).
-/
import proofs.«429934_j18124761989257_3_alg».proof.Defs
import proofs.«429934_j18124761989257_3_alg».proof.Proof.Gen.Kernel
import proofs.«429934_j18124761989257_3_alg».proof.Proof.Gen.Kernel.Skeleton
import proofs.«429934_j18124761989257_3_alg».proof.Proof.Gen.Kernel.Launch
import proofs.«429934_j18124761989257_3_alg».proof.Proof.Gen.Kernel.Points
import proofs.«429934_j18124761989257_3_alg».proof.Proof.Gen.Kernel.Frame
import proofs.«429934_j18124761989257_3_alg».proof.Proof.Gen.KernelIdeal
import proofs.«429934_j18124761989257_3_alg».proof.Proof.Gen.KernelIdeal.Skeleton
import proofs.«429934_j18124761989257_3_alg».proof.Proof.Gen.KernelIdeal.Launch
import proofs.«429934_j18124761989257_3_alg».proof.Proof.Gen.KernelIdeal.Points
import proofs.«429934_j18124761989257_3_alg».proof.Proof.Gen.KernelIdeal.Frame
import proofs.«429934_j18124761989257_3_alg».proof.Proof.Gen.ReferenceIdeal
import proofs.«429934_j18124761989257_3_alg».proof.Proof.Gen.Pre_finite_inputs
import proofs.«429934_j18124761989257_3_alg».proof.Proof.ReferenceLayer
import proofs.«429934_j18124761989257_3_alg».proof.Proof.KernelArray
import Idealize.ShloMosaic.Adequacy
import Idealize.ShloMosaic.Init

noncomputable section

namespace Cert.Proof

open Idealize.ShloMosaic Idealize.SL.Sem Cert.Kernel

/-- The kernel, read as printed, runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w1, w2 and b1, the idealized kernel ends with its result array at the layer
    of those four arrays, and the reference ends with its result at the layer of its own, which are the same. -/
theorem algebraic : Cert.algebraic_KernelIdeal_ReferenceIdeal := by
  intro m ρ m' ρ' _ hagree
  refine ⟨fun c => Cert.FourierResidual.OfKernel.result m c, Cert.FourierResidual.OfKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.FourierResidual.OfReference.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
